-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S2x800000 32) (main_arg1 : FVec F S50000x128 .f32) (main_arg2 : FVec F S128x128 .f32) (main_arg3 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 56
  | .vmem => 5
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000x128, .f32⟩
  | .hbm, ⟨46, _⟩ => ⟨S850000x1, .f32⟩
  | .hbm, ⟨47, _⟩ => ⟨S850000x128, .f32⟩
  | .hbm, ⟨48, _⟩ => ⟨S850000x128, .f32⟩
  | .hbm, ⟨49, _⟩ => ⟨S_, .f32⟩
  | .hbm, ⟨50, _⟩ => ⟨S50000x128, .f32⟩
  | .hbm, ⟨51, _⟩ => ⟨S850000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Layer.lean ====
/-
  The graph-convolution layer both programs compute, written once as functions of whole arrays.

  The edge list has 800000 edges; every node gets a self loop, so there are 850000 messages. `sources` and `targets` are
  the two rows of the edge list with the node numbers 0 … 49999 appended. The degree of a node is the number of
  messages it receives; its normalisation factor is 1/√degree where the degree is positive and 0 elsewhere.
  A take `table[idx]` first wraps a negative position (adds 50000) and lays the positions out as a column of start
  indices (`wrapped`). `aggregate` sums the message rows into their target nodes and adds the bias: this last stretch
  is the same in both programs, so the equivalence is that of the two arrays of messages.

  The message arrays and the aggregation are stated for any sources, targets and factors; the programs use the ones
  above. The kernel scales the features by the factor of their own node BEFORE the matrix product and scales each message by
  its target's factor afterwards (`kernelMessages`); the reference multiplies the plain product's rows by the product
  of both factors (`referenceMessages`).
-/
import proofs.«139265_j47991964565963_1_alg».proof.KernelIdeal

noncomputable section

namespace Cert.Layer

open Idealize.ShloMosaic Cert.KernelIdeal Cert.KernelIdeal.Facts₀

variable {F : FTy → Type} [FloatOps F] [Cert.KernelIdeal.Facts]

/-- Row 0 of the edge list (the message sources) followed by the self loops 0 … 49999. -/
def sources (ei : IVec S2x800000 32) : IVec S850000 32 :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- Row 1 of the edge list (the aggregation targets) followed by the self loops 0 … 49999. -/
def targets (ei : IVec S2x800000 32) : IVec S850000 32 :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- A vector of 850000 words as a column. -/
def column {α : Type} (v : S850000.Idx → α) : S850000x1.Idx → α :=
  broadcastInDim S850000x1 ![0] bcast_S850000_S850000x1_0 v

/-- The start indices of a take: a negative position has 50000 added; then the column. -/
def wrapped (v : IVec S850000 32) : IVec S850000x1 32 :=
  column (select (cmpi .slt v (broadcastInDim S850000 ![] bcast_S_S850000 (constantI S_ 32 0#32)))
    (addi v (broadcastInDim S850000 ![] bcast_S_S850000 (constantI S_ 32 50000#32))) v)

/-- The number of messages each node receives, as a float. -/
def degree (ei : IVec S2x800000 32) : FVec F S50000 .f32 :=
  Host.scatterAdd scatter_S50000_S850000x1_S850000_n_0_0_1 (broadcastInDim S50000 ![] bcast_S_S50000 (constant S_ .f32 0x00000000#32))
    (column (targets ei)) (broadcastInDim S850000 ![] bcast_S_S850000 (constant S_ .f32 0x3F800000#32))

/-- The normalisation factor of each node: 1/√degree where the degree is positive, 0 elsewhere. -/
def factor (ei : IVec S2x800000 32) : FVec F S50000 .f32 :=
  select (cmpf .ogt (degree (F := F) ei) (broadcastInDim S50000 ![] bcast_S_S50000 (constant S_ .f32 0x00000000#32)))
    (Host.rsqrt (degree (F := F) ei)) (broadcastInDim S50000 ![] bcast_S_S50000 (constant S_ .f32 0x00000000#32))

/-- A vector over the nodes repeated along the 128 feature columns. -/
def alongFeatures (v : FVec F S50000 .f32) : FVec F S50000x128 .f32 :=
  broadcastInDim S50000x128 ![0, 1] bcast_S50000x1_S50000x128_0_1 (broadcastInDim S50000x1 ![0] bcast_S50000_S50000x1_0 v)

/-- A vector over the messages repeated along the 128 feature columns. -/
def alongMessages (v : FVec F S850000 .f32) : FVec F S850000x128 .f32 :=
  broadcastInDim S850000x128 ![0, 1] bcast_S850000x1_S850000x128_0_1 (column v)

/-- The features, every row scaled by its node's factor: what the kernel's matrix product is fed. -/
def scaledFeatures (ei : IVec S2x800000 32) (x : FVec F S50000x128 .f32) : FVec F S50000x128 .f32 :=
  mulf x (alongFeatures (factor (F := F) ei))

/-- The kernel's messages, for message sources `src`, targets `tgt` and node factors `fac`: row `src e` of the
    (already source-scaled) product `Y`, times the target's factor. -/
def kernelMessages (src tgt : IVec S850000 32) (fac : FVec F S50000 .f32) (Y : FVec F S50000x128 .f32) : FVec F S850000x128 .f32 :=
  mulf (Host.gather gather_S50000x128_S850000x1_S850000x128_1_0_n_n_0_1_1128 Y (wrapped src))
    (alongMessages (Host.gather gather_S50000_S850000x1_S850000_n_0_n_n_0_1_1 fac (wrapped tgt)))

/-- The reference's messages: row `src e` of the plain product `XW`, times the product of both ends' factors. -/
def referenceMessages (src tgt : IVec S850000 32) (fac : FVec F S50000 .f32) (XW : FVec F S50000x128 .f32) : FVec F S850000x128 .f32 :=
  mulf (Host.gather gather_S50000x128_S850000x1_S850000x128_1_0_n_n_0_1_1128 XW (wrapped src))
    (alongMessages (mulf (Host.gather gather_S50000_S850000x1_S850000_n_0_n_n_0_1_1 fac (wrapped src))
      (Host.gather gather_S50000_S850000x1_S850000_n_0_n_n_0_1_1 fac (wrapped tgt))))

/-- The messages summed into their target nodes `tgt`, plus the bias. -/
def aggregate (tgt : IVec S850000 32) (b : FVec F S128 .f32) (msgs : FVec F S850000x128 .f32) : FVec F S50000x128 .f32 :=
  addf (Host.scatterAdd scatter_S50000x128_S850000x1_S850000x128_1_0_0_1
      (broadcastInDim S50000x128 ![] bcast_S_S50000x128 (constant S_ .f32 0x00000000#32)) (column tgt) msgs)
    (broadcastInDim S50000x128 ![0, 1] bcast_S1x128_S50000x128_0_1 (broadcastInDim S1x128 ![1] bcast_S128_S1x128_1 b))

end Cert.Layer

end
-- ==== Proof.ReferenceValue.lean ====
/-
  The reference's result, read as the layer's whole-array functions: the messages built from the plain product x · W
  and the product of both ends' factors, summed into their targets, plus the bias.
-/
import proofs.«139265_j47991964565963_1_alg».proof.Proof.ReferenceRun
import proofs.«139265_j47991964565963_1_alg».proof.Proof.Layer
import proofs.«139265_j47991964565963_1_alg».proof.Proof.Gen.KernelIdeal

set_option maxRecDepth 16384

noncomputable section

namespace Cert.ReferenceIdeal.RefValue

open Cert.ReferenceIdeal Cert.ReferenceIdeal.Gen
open Idealize.ShloMosaic Idealize.ShloMosaic.TcCoe Idealize.SL.Sem

variable {F : FTy → Type} [FloatOps F]

/-- The reference's dense transform: the plain product of the features and the weight. -/
def plainProduct (x : FVec F S50000x128 .f32) (W : FVec F S128x128 .f32) : FVec F S50000x128 .f32 :=
  Host.dotGeneral dot_S50000x128_S128x128_S50000x128_1_0_0_1_n_n none x W

/-- The composed term of the reference's run is the layer over the plain product. -/
theorem result_eq (m : (ℓ : Loc nD τ sig) → Buf (Elt F) ℓ) (c : Dev nD) :
    RunP.res_main_v47 m c
      = Layer.aggregate (Layer.targets (m ((c.tc : Thread nD τ).loc main_arg0))) (m ((c.tc : Thread nD τ).loc main_arg3))
          (Layer.referenceMessages (Layer.sources (m ((c.tc : Thread nD τ).loc main_arg0)))
            (Layer.targets (m ((c.tc : Thread nD τ).loc main_arg0))) (Layer.factor (m ((c.tc : Thread nD τ).loc main_arg0)))
            (plainProduct (m ((c.tc : Thread nD τ).loc main_arg1)) (m ((c.tc : Thread nD τ).loc main_arg2)))) := by
  unfold RunP.res_main_v47
  rfl

end Cert.ReferenceIdeal.RefValue

end
-- ==== Proof.HostValues.lean ====
/-
  The values the host lines around the region compute, read back as the layer's whole-array functions.

  Before the region the host builds the message sources and targets, the normalisation factors, and the features scaled
  by their node's factor (the region's first operand). After the region it takes rows of the region's output by the
  sources, scales them by the targets' factors, sums them into the targets and adds the bias.
-/
import proofs.«139265_j47991964565963_1_alg».proof.Proof.Gen.KernelIdeal.Frame
import proofs.«139265_j47991964565963_1_alg».proof.Proof.Layer
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ)

/-- The message sources, as the host lines before the region leave them. -/
theorem sources_eq (c : Dev nD) : (V m c main_v3 : S850000.Idx → BitVec 32) = Layer.sources (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The aggregation targets. -/
theorem targets_eq (c : Dev nD) : (V m c main_v6 : S850000.Idx → BitVec 32) = Layer.targets (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The normalisation factors. -/
theorem factor_eq (c : Dev nD) : (V m c main_v15 : FVec F S50000 .f32) = Layer.factor (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 4000000 in
/-- The region's first operand: the features scaled by their node's factor. -/
theorem scaled_eq (c : Dev nD) : (V m c main_v18 : FVec F S50000x128 .f32)
    = Layer.scaledFeatures (m ((c : Thread nD τ).loc main_arg0)) (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

/-- The same, with the operands named as the region's windows name them. -/
theorem lhs_eq (c : Dev nD) : (V m c (Pipeline.arrRef spec0 0) : FVec F S50000x128 .f32)
    = Layer.scaledFeatures (m ((c : Thread nD τ).loc main_arg0)) (m ((c : Thread nD τ).loc main_arg1)) :=
  scaled_eq m c

theorem rhs_eq (c : Dev nD) : (V m c (Pipeline.arrRef spec0 1) : FVec F S128x128 .f32) = m ((c : Thread nD τ).loc main_arg2) :=
  V_main_arg2 m c

/-! ## After the region -/

/-- What a buffer holds when the region has ended: the region's arrays at what the run leaves in them, every other
    buffer as the host lines before the region left it. -/
abbrev afterRegion (c : Dev nD) (b : Ref sig .tc) :=
  Pipeline.withArrays (cfgs 0).spec c (V0 m c) (fun w => (dats m 0 c).arrAt w (cfgs 0).N) (Proc.devRef .tc b)

set_option maxHeartbeats 8000000 in
/-- The program's result from the buffers' contents at the region's end: rows of the region's output taken by the
    sources, scaled by the targets' factors, summed into the targets, plus the bias. -/
theorem result_raw (c : Dev nD) :
    Pipeline.afterTail₀ cfgs (dats m) 0 (V0 m) [hostOps1] c main_v42
      = Layer.aggregate (afterRegion m c main_v6) (afterRegion m c main_arg3)
          (Layer.kernelMessages (afterRegion m c main_v3) (afterRegion m c main_v6) (afterRegion m c main_v15)
            (afterRegion m c main_v19)) := by
  unfold Pipeline.afterTail₀
  simp only [hostOps1, List.flatten_cons, List.flatten_nil, List.append_nil, List.cons_append, List.nil_append]
  after_results
  rfl

theorem after_sources (c : Dev nD) : (afterRegion m c main_v3 : S850000.Idx → BitVec 32) = Layer.sources (m ((c : Thread nD τ).loc main_arg0)) :=
  (Pipeline.withArrays_of_ne _ c (V0 m c) _ main_v3 (by exact (by decide : ∀ w, Pipeline.arrRef spec0 w ≠ main_v3))).trans (sources_eq m c)

theorem after_targets (c : Dev nD) : (afterRegion m c main_v6 : S850000.Idx → BitVec 32) = Layer.targets (m ((c : Thread nD τ).loc main_arg0)) :=
  (Pipeline.withArrays_of_ne _ c (V0 m c) _ main_v6 (by exact (by decide : ∀ w, Pipeline.arrRef spec0 w ≠ main_v6))).trans (targets_eq m c)

theorem after_factor (c : Dev nD) : (afterRegion m c main_v15 : FVec F S50000 .f32) = Layer.factor (m ((c : Thread nD τ).loc main_arg0)) :=
  (Pipeline.withArrays_of_ne _ c (V0 m c) _ main_v15 (by exact (by decide : ∀ w, Pipeline.arrRef spec0 w ≠ main_v15))).trans (factor_eq m c)

theorem after_bias (c : Dev nD) : (afterRegion m c main_arg3 : FVec F S128 .f32) = m ((c : Thread nD τ).loc main_arg3) :=
  (Pipeline.withArrays_of_ne _ c (V0 m c) _ main_arg3 (by exact (by decide : ∀ w, Pipeline.arrRef spec0 w ≠ main_arg3))).trans (V_main_arg3 m c)

theorem after_output (c : Dev nD) : (afterRegion m c main_v19 : FVec F S50000x128 .f32) = (dats m 0 c).arrAt 2 cfg0.N :=
  Pipeline.withArrays_arr spec0 launch0.win.arr_inj c _ _ 2

/-- THE PROGRAM'S RESULT as the layer's functions of the inputs and of the region's output array. -/
theorem result_eq (c : Dev nD) :
    Pipeline.afterTail₀ cfgs (dats m) 0 (V0 m) [hostOps1] c main_v42
      = Layer.aggregate (Layer.targets (m ((c : Thread nD τ).loc main_arg0))) (m ((c : Thread nD τ).loc main_arg3))
          (Layer.kernelMessages (Layer.sources (m ((c : Thread nD τ).loc main_arg0))) (Layer.targets (m ((c : Thread nD τ).loc main_arg0)))
            (Layer.factor (m ((c : Thread nD τ).loc main_arg0))) ((dats m 0 c).arrAt 2 cfg0.N)) := by
  rw [result_raw, after_sources, after_targets, after_factor, after_bias, after_output]

end Cert.KernelIdeal.HostValues

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Product.lean ====
/-
  What the kernel's one region leaves in its output array: the rows of its first operand times its second operand.

  The grid has ten points; point t stages rows 5000·t … 5000·t + 4999 of the first operand (all 128 columns), the whole
  128 × 128 second operand, and writes back the same rows of the output. The body stores the matrix product of the two
  staged blocks into a zero accumulator (the two roundings to bf16 are the identity on the extended reals), so entry
  (p, q) of block t is  Σ_f A (5000·t + p, f) · W (f, q):  block t of the output is block t of the whole product
  `rowsTimes A W`, and the ten blocks tile the 50000 rows.
-/
import proofs.«139265_j47991964565963_1_alg».proof.Proof.Gen.KernelIdeal.Frame
import proofs.«139265_j47991964565963_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The product of a 50000 × 128 array with a 128 × 128 array, entry by entry. -/
def rowsTimes (A : FVec Ideal S50000x128 .f32) (W : FVec Ideal S128x128 .f32) : FVec Ideal S50000x128 .f32 :=
  fun i => ∑ f : Fin 128, A (ix2 (i 0) f) * W (ix2 f (i 1))

theorem rowsTimes_apply (A : FVec Ideal S50000x128 .f32) (W : FVec Ideal S128x128 .f32) (r : Fin 50000) (q : Fin 128) :
    rowsTimes A W (ix2 r q) = ∑ f : Fin 128, A (ix2 r f) * W (ix2 f q) := rfl

theorem offsets_zero : (![0, 0] : Fin 2 → Nat) = fun _ => 0 := funext fun a => by fin_cases a <;> rfl

/-- The value the body stores, at (p, q): row p of the first block against column q of the second. -/
theorem stored_apply (x0 : Vec Ideal S5000x128 .f32) (x1 : Vec Ideal S128x128 .f32) (p : Fin 5000) (q : Fin 128) :
    k0_pay1 x0 x1 (ix2 p q) = ∑ f : Fin 128, x0 (ix2 p f) * x1 (ix2 f q) := by
  unfold k0_pay1
  refine (PlainMatmul.apply (M := 5000) (K := 128) (N := 128) none _ _ p q).trans ?_
  simp only [truncf_apply, shapeCast_self]

/-- The printed index maps over the grid: the first operand and the output move down one block of rows per point, the
    second operand stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := lt_of_lt_of_eq t.isLt N_0

/-- Row `p` of point `t`'s block is row 5000·t + p of the array. -/
def rowOf (t : Fin cfg0.N) (p : Fin 5000) : Fin 50000 := ⟨5000 * t.val + p.val, by have := point_lt t; have := p.isLt; omega⟩

/-- Where entry (p, f) of the first operand's block at point t sits in its array. -/
theorem lhs_emb (t : Fin cfg0.N) (p : Fin 5000) (f : Fin 128) :
    ((cfg0.win 0).blk t).view.emb (ix2 p f) = ix2 (rowOf t p) f := by
  obtain ⟨e0, e1, -, -, -, -⟩ := index_facts t
  refine funext fun a => Fin.ext ?_
  match a with
  | ⟨0, _⟩ => show win0_0.index t (0 : Fin 2) * 5000 + 1 * p.val = 5000 * t.val + p.val; omega
  | ⟨1, _⟩ => show win0_0.index t (1 : Fin 2) * 128 + 1 * f.val = f.val; omega

/-- Where entry (f, q) of the second operand's block sits in its array: in place, at every point. -/
theorem rhs_emb (t : Fin cfg0.N) (f q : Fin 128) :
    ((cfg0.win 1).blk t).view.emb (ix2 f q) = ix2 f q := by
  obtain ⟨-, -, e2, e3, -, -⟩ := index_facts t
  refine funext fun a => Fin.ext ?_
  match a with
  | ⟨0, _⟩ => show win0_1.index t (0 : Fin 2) * 128 + 1 * f.val = f.val; omega
  | ⟨1, _⟩ => show win0_1.index t (1 : Fin 2) * 128 + 1 * q.val = q.val; omega

/-- Where entry (p, q) of the output's block at point t sits in the array. -/
theorem out_emb (t : Fin cfg0.N) (p : Fin 5000) (q : Fin 128) :
    ((cfg0.win 2).blk t).view.emb (ix2 p q) = ix2 (rowOf t p) q := by
  obtain ⟨-, -, -, -, e4, e5⟩ := index_facts t
  refine funext fun a => Fin.ext ?_
  match a with
  | ⟨0, _⟩ => show win0_2.index t (0 : Fin 2) * 5000 + 1 * p.val = 5000 * t.val + p.val; omega
  | ⟨1, _⟩ => show win0_2.index t (1 : Fin 2) * 128 + 1 * q.val = q.val; omega

/-- For ANY two arrays: the product of their blocks at point t is block t of their whole product. -/
theorem block_eq (A : Vec Ideal S50000x128 .f32) (B : Vec Ideal S128x128 .f32) (t : Fin cfg0.N) :
    (cfg0.win 2).cut (grid0.coords t)
        (k0_pay1 (((cfg0.win 0).blk t).view.read (Elt Ideal) A) (((cfg0.win 1).blk t).view.read (Elt Ideal) B))
      = ((cfg0.win 2).blk t).view.read (Elt Ideal) (rowsTimes A B) := by
  have key : ∀ (p : Fin 5000) (q : Fin 128),
      k0_pay1 (((cfg0.win 0).blk t).view.read (Elt Ideal) A) (((cfg0.win 1).blk t).view.read (Elt Ideal) B) (ix2 p q)
      = rowsTimes A B (((cfg0.win 2).blk t).view.emb (ix2 p q)) := by
    intro p q
    rw [stored_apply, out_emb, rowsTimes_apply]
    refine Finset.sum_congr rfl fun f _ => ?_
    show A (((cfg0.win 0).blk t).view.emb (ix2 p f)) * B (((cfg0.win 1).blk t).view.emb (ix2 f q)) = _
    rw [lhs_emb, rhs_emb]
  funext j
  have hj : j = ix2 (j 0) (j 1) := eq_ix2 j
  rw [hj]
  exact key (j 0) (j 1)

/-- The two operands as the region finds them, at their literal types. -/
abbrev lhsArr (c : Dev nD) : Vec Ideal S50000x128 .f32 := V m c (Pipeline.arrRef spec0 0)
abbrev rhsArr (c : Dev nD) : Vec Ideal S128x128 .f32 := V m c (Pipeline.arrRef spec0 1)

/-- WHAT POINT t WRITES BACK is block t of the whole product. -/
theorem flushed_eq (c : Dev nD) (t : Fin cfg0.N) :
    (dats m 0 c).flushed 2 t = ((cfg0.win 2).blk t).view.read (Elt Ideal) (rowsTimes (lhsArr m c) (rhsArr m c)) := by
  show (cfg0.win 2).cut (grid0.coords t) ((dats m 0 c).after 2 t) = _
  rw [after0_2]
  unfold out0_2 iblk
  rw [View.canon_unit_zero offsets_zero]
  simp only [View.ld_unit_zero (S := S5000x128) offsets_zero, View.ld_unit_zero (S := S128x128) offsets_zero]
  exact block_eq (lhsArr m c) (rhsArr m c) t

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v19).slice (win0_2.rect t)).set ↔ _
  rw [View.set_slice_whole, Rect.mem_set_unit]
  exact Iff.rfl

/-- Every entry of the output is in some point's block: row r belongs to point r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, e4, e5⟩ := index_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE OUTPUT ARRAY after the region: the whole product of the operands as the region found them. -/
theorem final (c : Dev nD) : (dats m 0 c).arrAt 2 cfg0.N = rowsTimes (lhsArr m c) (rhsArr m c) :=
  (dats m 0 c).arrAt_eq_of_cover 2 _ (fun t _ => flushed_eq m c t) covered

end Cert.KernelIdeal.Product

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.Messages.lean ====
/-
  The two arrays of messages are equal when the kernel's product is the plain product with every row scaled by its
  node's factor.

  A take reads its table at the row a start index selects: the index word read signed and clamped into [0, 49999]
  (`node`). Message `e`, feature `q`:
    kernel      Y (node(src e), q) · f (node(tgt e))
    reference   XW (node(src e), q) · (f (node(src e)) · f (node(tgt e)))
  so with  Y (j, q) = XW (j, q) · f j  the two agree by associativity of the product, which holds for all extended reals.
  The lemma is stated for arbitrary start indices and an arbitrary vector of factors.
-/
import proofs.«139265_j47991964565963_1_alg».proof.Proof.Layer
import proofs.«139265_j47991964565963_1_alg».proof.Proof.LibGatherRows
import proofs.«139265_j47991964565963_1_alg».proof.Proof.LibIndexWords
import Idealize.ShloMosaic.Lib.StableHlo.Predicate
import Idealize.ShloMosaic.Lib.ValueIdx
import Idealize.ShloMosaic.Lib.Pipeline.Value

noncomputable section

namespace Cert.Layer

open Idealize.ShloMosaic Idealize.ShloMosaic.ValueIdx Cert.KernelIdeal Cert.KernelIdeal.Facts₀

variable [Cert.KernelIdeal.Facts]

/-- The node a start index selects: the word read signed, clamped into [0, 49999]. -/
def node (I : IVec S850000x1 32) (e : Fin 850000) : Fin 50000 :=
  ⟨min (I (ix2 e (0 : Fin 1))).toInt.toNat (50000 - 1), by omega⟩

/-- A take of whole rows reads, at (e, q), the table's row `node I e`. -/
theorem rows_read {α : Type} (Y : S50000x128.Idx → α) (I : IVec S850000x1 32) (e : Fin 850000) (q : Fin 128) :
    Host.gather gather_S50000x128_S850000x1_S850000x128_1_0_n_n_0_1_1128 Y I (ix2 e q) = Y (ix2 (node I e) q) :=
  GatherRows.gather_rows_apply (N := 50000) (C := 128) (n := 850000) (by decide)
    gather_S50000x128_S850000x1_S850000x128_1_0_n_n_0_1_1128_wf Y I e q

/-- A take of entries of a vector reads, at e, the vector's entry `node I e`. -/
theorem entries_read {α : Type} (d : S50000.Idx → α) (I : IVec S850000x1 32) (e : Fin 850000) :
    Host.gather gather_S50000_S850000x1_S850000_n_0_n_n_0_1_1 d I (ix1 e) = d (ix1 (node I e)) := by
  have h1 : (ix1 e : S850000.Idx) = Shape.Idx.ofFin e := funext fun a => by
    match a with
    | ⟨0, _⟩ => rfl
  have h2 : (StableHlo.Predicate.ixP e : S850000x1.Idx) = ix2 e (0 : Fin 1) := funext fun a => by
    match a with
    | ⟨0, _⟩ => rfl
    | ⟨1, _⟩ => rfl
  rw [h1, StableHlo.Predicate.gather_take gather_S50000_S850000x1_S850000_n_0_n_n_0_1_1 rfl rfl rfl rfl d I e (by decide)]
  refine congrArg d (funext fun a => Fin.ext ?_)
  match a with
  | ⟨0, _⟩ =>
    show min (I (StableHlo.Predicate.ixP e)).toInt.toNat (50000 - 1) = min (I (ix2 e (0 : Fin 1))).toInt.toNat (50000 - 1)
    rw [h2]

/-- A vector over the messages repeated along the features reads, at (e, q), the vector at e. -/
theorem alongMessages_apply (v : FVec Ideal S850000 .f32) (e : Fin 850000) (q : Fin 128) :
    alongMessages v (ix2 e q) = v (ix1 e) := by
  unfold alongMessages column
  have hc : broadcastInDim S850000x128 ![0, 1] bcast_S850000x1_S850000x128_0_1
      (broadcastInDim S850000x1 ![0] bcast_S850000_S850000x1_0 v) (ix2 e q)
      = broadcastInDim S850000x1 ![0] bcast_S850000_S850000x1_0 v (ix2 e (0 : Fin 1)) := by
    refine broadcastInDim_apply ![0, 1] bcast_S850000x1_S850000x128_0_1 _ (ix2 e q) (ix2 e (0 : Fin 1)) ?_
    intro a
    match a with
    | ⟨0, _⟩ => rfl
    | ⟨1, _⟩ => rfl
  rw [hc]
  exact LibIndexWords.broadcastInDim_col_apply bcast_S850000_S850000x1_0 v e 0

/-- A vector over the nodes repeated along the features reads, at (j, q), the vector at j. -/
theorem alongFeatures_apply (v : FVec Ideal S50000 .f32) (j : Fin 50000) (q : Fin 128) :
    alongFeatures v (ix2 j q) = v (ix1 j) := by
  unfold alongFeatures
  have hc : broadcastInDim S50000x128 ![0, 1] bcast_S50000x1_S50000x128_0_1
      (broadcastInDim S50000x1 ![0] bcast_S50000_S50000x1_0 v) (ix2 j q)
      = broadcastInDim S50000x1 ![0] bcast_S50000_S50000x1_0 v (ix2 j (0 : Fin 1)) := by
    refine broadcastInDim_apply ![0, 1] bcast_S50000x1_S50000x128_0_1 _ (ix2 j q) (ix2 j (0 : Fin 1)) ?_
    intro a
    match a with
    | ⟨0, _⟩ => rfl
    | ⟨1, _⟩ => rfl
  rw [hc]
  exact LibIndexWords.broadcastInDim_col_apply bcast_S50000_S50000x1_0 v j 0

/-- THE MESSAGES AGREE: if every row of `Y` is the row of `XW` times its node's factor, then taking rows of `Y` and
    scaling by the target's factor is taking rows of `XW` and scaling by the product of both factors. -/
theorem messages_eq (src tgt : IVec S850000 32) (fac : FVec Ideal S50000 .f32) (Y XW : FVec Ideal S50000x128 .f32)
    (hY : ∀ (j : Fin 50000) (q : Fin 128), Y (ix2 j q) = XW (ix2 j q) * fac (ix1 j)) :
    kernelMessages src tgt fac Y = referenceMessages src tgt fac XW := by
  funext i
  obtain ⟨e, q, rfl⟩ : ∃ (e : Fin 850000) (q : Fin 128), i = ix2 e q := ⟨i 0, i 1, eq_ix2 i⟩
  unfold kernelMessages referenceMessages
  rw [mulf_apply, mulf_apply, alongMessages_apply, alongMessages_apply, mulf_apply, rows_read, rows_read,
    entries_read, entries_read, hY, mul_assoc]

end Cert.Layer

end
-- ==== Proof.RowScale.lean ====
/-
  Scaling a row before or after a contraction, over the extended reals, and the normalisation factor of a degree.

  For real entries `x k`, `w k` and a real scale `s`,  Σ_k (x k · s) · w k = (Σ_k x k · w k) · s.  On the extended
  reals multiplication does not distribute over addition at the infinities (an infinite `s` against summands of both
  signs gives ⊥ on the left and a signed infinity on the right), so the identity is proved on the reals and carried
  across the coercion; it is stated for real entries only.

  The factor a graph convolution scales by is  d ↦ if d > 0 then 1 / √d else 0.  Whatever extended real `d` is, this is
  a real number: at a positive real it is the reciprocal of a real square root, at +∞ the reciprocal square root is 0,
  and everywhere else the comparison fails and the value is the literal zero.
-/
import Mathlib.Data.EReal.Operations
import Mathlib.Algebra.BigOperators.Ring.Finset
import Idealize.ShloMosaic.PureOps.Ideal
import Idealize.ShloMosaic.PureOps.Ideal.Laws

noncomputable section

namespace Cert.RowScale

open Idealize.ShloMosaic
open scoped BigOperators

/-- An extended real that is a real number. -/
def IsReal (x : EReal) : Prop := ∃ r : ℝ, x = (r : EReal)

/-- A finite sum of coerced reals is the coerced sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- SCALE THEN CONTRACT = CONTRACT THEN SCALE, for real entries and a real scale. -/
theorem scaled_sum {K : Type} [Fintype K] (x w : K → EReal) (s : EReal)
    (hx : ∀ k, IsReal (x k)) (hw : ∀ k, IsReal (w k)) (hs : IsReal s) :
    ∑ k, (x k * s) * w k = (∑ k, x k * w k) * s := by
  choose xr hxr using hx
  choose wr hwr using hw
  obtain ⟨sr, rfl⟩ := hs
  simp only [hxr, hwr, ← EReal.coe_mul, sum_coe]
  congr 1
  rw [Finset.sum_mul]
  exact Finset.sum_congr rfl fun k _ => by ring

/-- The normalisation factor of any extended real is a real number. -/
theorem factor_isReal (d : EReal) :
    IsReal (Scalar.select (Ideal.cmp .ogt d (Ideal.ofBits .f32 0x00000000#32)) (Ideal.rsqrt d) (Ideal.ofBits .f32 0x00000000#32)) := by
  rw [Ideal.ofBits_zero_f32]
  by_cases h : (0 : EReal) < d
  · have hc : Ideal.cmp .ogt d 0 = 1#1 := by
      show BitVec.ofBool (decide ((0 : EReal) < d)) = 1#1
      rw [decide_eq_true h]; rfl
    rw [hc]
    show IsReal (if (1#1 : BitVec 1) = 1 then Ideal.rsqrt d else 0)
    rw [if_pos (by decide : (1#1 : BitVec 1) = 1)]
    induction d using EReal.rec with
    | bot => exact absurd h (by simp)
    | top => exact ⟨0, by simp⟩
    | coe r =>
      have hr : 0 < r := by exact_mod_cast h
      rw [Ideal.rsqrt_coe, if_neg (not_lt.mpr hr.le), if_neg hr.ne']
      exact ⟨_, rfl⟩
  · have hc : Ideal.cmp .ogt d 0 = 0#1 := by
      show BitVec.ofBool (decide ((0 : EReal) < d)) = 0#1
      rw [decide_eq_false h]; rfl
    rw [hc]
    show IsReal (if (0#1 : BitVec 1) = 1 then Ideal.rsqrt d else 0)
    rw [if_neg (by decide : ¬ (0#1 : BitVec 1) = 1)]
    exact ⟨0, by simp⟩

end Cert.RowScale

end
-- ==== Proof.Scaled.lean ====
/-
  The kernel's product is the reference's product with every row scaled by its node's factor.

  The kernel multiplies  (x · factor)  by  W:  entry (j, q) is  Σ_f (x (j, f) · factor j) · W (f, q).  The reference
  multiplies  x  by  W:  entry (j, q) is  Σ_f x (j, f) · W (f, q).  For real features and weights and a real factor the
  first is the second times  factor j  (the scale moves out of the sum); the factor of a node is real whatever its
  degree is, and the features and weights are real under the precondition.
-/
import proofs.«139265_j47991964565963_1_alg».proof.Proof.Product
import proofs.«139265_j47991964565963_1_alg».proof.Proof.ReferenceValue
import proofs.«139265_j47991964565963_1_alg».proof.Proof.Messages
import proofs.«139265_j47991964565963_1_alg».proof.Proof.RowScale
import proofs.«139265_j47991964565963_1_alg».proof.Proof.LibPlainMatmul
import Idealize.ShloMosaic.PureOps.Ideal.Laws
import Idealize.ShloMosaic.Lib.ValueIdx

set_option maxRecDepth 16384

noncomputable section

namespace Cert.Scaled

open Idealize.ShloMosaic Idealize.ShloMosaic.ValueIdx Cert.RowScale
open scoped BigOperators

/-- The host's plain product [M, K] × [K, N] at entry (r, c): the sum over k of a (r, k) · b (k, c). -/
theorem dotGeneral_plain_apply {M K N : ℕ} (prec : Option ContractPrecision) (sched : HostSchedule) {φ₁ φ₂ : FTy}
    (a : FVec Ideal ⟨2, ![M, K]⟩ φ₁) (b : FVec Ideal ⟨2, ![K, N]⟩ φ₂) (r : Fin M) (c : Fin N) :
    FloatOps.dotGeneral (DotDims.plain M K N) prec sched a b (ix2 r c) = ∑ k : Fin K, a (ix2 r k) * b (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact PlainMatmul.lhs_row _ _
      | ⟨1, _⟩ => exact (PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (PlainMatmul.rhs_row _ _).trans hk
      | ⟨1, _⟩ => exact PlainMatmul.rhs_col _ _)
  rw [el, er]

/-- The reference's product at entry (j, q). -/
theorem plainProduct_apply (x : FVec Ideal Cert.ReferenceIdeal.S50000x128 .f32) (W : FVec Ideal Cert.ReferenceIdeal.S128x128 .f32)
    (j : Fin 50000) (q : Fin 128) :
    Cert.ReferenceIdeal.RefValue.plainProduct x W (ix2 j q) = ∑ f : Fin 128, x (ix2 j f) * W (ix2 f q) :=
  dotGeneral_plain_apply (M := 50000) (K := 128) (N := 128) none .single x W j q

/-- The factor at a node, from the degree at that node: 1/√degree where the degree compares above zero, else zero. -/
theorem factor_apply {F : FTy → Type} [FloatOps F] (ei : IVec Cert.KernelIdeal.S2x800000 32) (i : Cert.KernelIdeal.S50000.Idx) :
    Cert.Layer.factor (F := F) ei i
      = Scalar.select (FloatOps.cmpf .ogt (Cert.Layer.degree (F := F) ei i) (FloatOps.ofBits .f32 0x00000000#32))
          (FloatOps.hostUnary .rsqrt (Cert.Layer.degree (F := F) ei i)) (FloatOps.ofBits .f32 0x00000000#32) := rfl

/-- The factor of every node is a real number. -/
theorem factor_real (ei : IVec Cert.KernelIdeal.S2x800000 32) (j : Fin 50000) :
    IsReal (Cert.Layer.factor (F := Ideal) ei (ix1 j)) := by
  rw [factor_apply]
  generalize Cert.Layer.degree (F := Ideal) ei (ix1 j) = d
  exact factor_isReal d

/-- THE KERNEL'S PRODUCT IS THE REFERENCE'S, ROW-SCALED: for real features and weights. -/
theorem product_scaled (ei : IVec Cert.KernelIdeal.S2x800000 32) (x : FVec Ideal Cert.KernelIdeal.S50000x128 .f32)
    (W : FVec Ideal Cert.KernelIdeal.S128x128 .f32) (hx : ∀ i, IsReal (x i)) (hW : ∀ i, IsReal (W i))
    (j : Fin 50000) (q : Fin 128) :
    Cert.KernelIdeal.Product.rowsTimes (Cert.Layer.scaledFeatures ei x) W (ix2 j q)
      = Cert.ReferenceIdeal.RefValue.plainProduct x W (ix2 j q) * Cert.Layer.factor (F := Ideal) ei (ix1 j) := by
  rw [Cert.KernelIdeal.Product.rowsTimes_apply, plainProduct_apply]
  have hs : ∀ f : Fin 128, Cert.Layer.scaledFeatures ei x (ix2 j f) = x (ix2 j f) * Cert.Layer.factor (F := Ideal) ei (ix1 j) := by
    intro f
    unfold Cert.Layer.scaledFeatures
    rw [mulf_apply, Cert.Layer.alongFeatures_apply]
  simp only [hs]
  exact scaled_sum (fun f => x (ix2 j f)) (fun f => W (ix2 f q)) _ (fun f => hx _) (fun f => hW _) (factor_real ei j)

end Cert.Scaled

end
-- ==== Proof.Finite.lean ====
/-
  The precondition read back: every entry of the three float inputs is a real number.

  The precondition is the conjunction of three tests "all |entries| < +∞". An extended real whose absolute value
  max(x, −x) is below +∞ is neither infinity, hence a real number.
-/
import proofs.«139265_j47991964565963_1_alg».proof.Pre_finite_inputs
import proofs.«139265_j47991964565963_1_alg».proof.Proof.RowScale
import Idealize.ShloMosaic.Lib.ReduceAll
import Idealize.ShloMosaic.Lib.ValueIdx
import Idealize.ShloMosaic.PureOps.Ideal

noncomputable section

namespace Cert.Finite

open Idealize.ShloMosaic Cert.Pre_finite_inputs Cert.RowScale

variable [Cert.Pre_finite_inputs.Facts]

instance scalarIdx_subsingleton : Subsingleton S_.Idx := ⟨fun a b => funext fun d => d.elim0⟩

/-- An extended real whose absolute value compares below the +∞ pattern is a real number. -/
theorem isReal_of_abs_lt (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => exfalso; revert h; simp [Ideal.cmp]
  | top => exfalso; revert h; simp [Ideal.cmp]
  | coe r => exact ⟨r, rfl⟩

/-- Under the precondition the features, the weight and the bias hold real numbers only. -/
theorem real_of_pre (ei : IVec S2x800000 32) (x : FVec Ideal S50000x128 .f32) (W : FVec Ideal S128x128 .f32)
    (b : FVec Ideal S128 .f32) (h : fn (F := Ideal) ei x W b = fun _ => 1#1) :
    (∀ i, IsReal (x i)) ∧ (∀ i, IsReal (W i)) ∧ (∀ i, IsReal (b i)) := by
  have h0 := congrFun h ValueIdx.ix0
  dsimp only [fn] at h0
  obtain ⟨h12, h3⟩ := IntOp.andi_eq_one.mp h0
  obtain ⟨h1, h2⟩ := IntOp.andi_eq_one.mp h12
  refine ⟨fun i => ?_, fun i => ?_, fun i => ?_⟩
  · exact isReal_of_abs_lt (x i) (Host.reduce_andi_all _ _ _ _ ValueIdx.ix0 h1 i)
  · exact isReal_of_abs_lt (W i) (Host.reduce_andi_all _ _ _ _ ValueIdx.ix0 h2 i)
  · exact isReal_of_abs_lt (b i) (Host.reduce_andi_all _ _ _ _ ValueIdx.ix0 h3 i)

end Cert.Finite

end
-- ==== Proof.lean ====
/-
  The kernel and the reference compute one graph-convolution layer (Proof/Layer.lean): self loops added, every message
  `x[src] · W` scaled by  factor(src) · factor(tgt)  with  factor = 1/√degree,  the messages summed into their targets,
  plus the bias.

  The reference forms  x · W  and scales each message by the product of both factors. The kernel scales the rows of
  `x` by their own node's factor first, runs the matrix product on the TensorCore in ten blocks of 5000 rows
  (Proof/Product.lean: the blocks tile the whole product), and scales each message by the target's factor only. With real
  features and weights (the precondition, Proof/Finite.lean) and a real factor (Proof/RowScale.lean: it is real whatever
  the degree), scaling a row before the product is scaling the product's row (Proof/Scaled.lean); the take of a row then
  carries the source's factor with it, and the two message arrays agree by associativity (Proof/Messages.lean). The
  aggregation after the messages is the same in both programs (Proof/HostValues.lean, Proof/ReferenceValue.lean).

  The three frames: the two kernel programs' are the generated frames; the reference's is its run with the result
  dropped. The idealization rewrote nothing, so `preserves` is trivial.
-/
import proofs.«139265_j47991964565963_1_alg».proof.Defs
import proofs.«139265_j47991964565963_1_alg».proof.Proof.Gen.Kernel
import proofs.«139265_j47991964565963_1_alg».proof.Proof.Gen.Kernel.Skeleton
import proofs.«139265_j47991964565963_1_alg».proof.Proof.Gen.Kernel.Launch
import proofs.«139265_j47991964565963_1_alg».proof.Proof.Gen.Kernel.Points
import proofs.«139265_j47991964565963_1_alg».proof.Proof.Gen.Kernel.Frame
import proofs.«139265_j47991964565963_1_alg».proof.Proof.Gen.KernelIdeal
import proofs.«139265_j47991964565963_1_alg».proof.Proof.Gen.KernelIdeal.Skeleton
import proofs.«139265_j47991964565963_1_alg».proof.Proof.Gen.KernelIdeal.Launch
import proofs.«139265_j47991964565963_1_alg».proof.Proof.Gen.KernelIdeal.Points
import proofs.«139265_j47991964565963_1_alg».proof.Proof.Gen.KernelIdeal.Frame
import proofs.«139265_j47991964565963_1_alg».proof.Proof.Gen.ReferenceIdeal
import proofs.«139265_j47991964565963_1_alg».proof.Proof.Gen.Pre_finite_inputs
import proofs.«139265_j47991964565963_1_alg».proof.Proof.ReferenceRun
import proofs.«139265_j47991964565963_1_alg».proof.Proof.ReferenceValue
import proofs.«139265_j47991964565963_1_alg».proof.Proof.HostValues
import proofs.«139265_j47991964565963_1_alg».proof.Proof.Product
import proofs.«139265_j47991964565963_1_alg».proof.Proof.Scaled
import proofs.«139265_j47991964565963_1_alg».proof.Proof.Messages
import proofs.«139265_j47991964565963_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-! ## The kernel's run, with its result named -/

section KernelRun

open Cert.KernelIdeal Cert.KernelIdeal.Gen

variable (m : (ℓ : Loc nD τ sig) → Buf (Elt Ideal) ℓ)

/-- The layer's output as the kernel computes it, from the launch contents of the four arguments on core `c`. -/
def result (c : Dev nD) : FVec Ideal S50000x128 .f32 :=
  Layer.aggregate (Layer.targets (m ((c : Thread nD τ).loc main_arg0))) (m ((c : Thread nD τ).loc main_arg3))
    (Layer.kernelMessages (Layer.sources (m ((c : Thread nD τ).loc main_arg0))) (Layer.targets (m ((c : Thread nD τ).loc main_arg0)))
      (Layer.factor (m ((c : Thread nD τ).loc main_arg0)))
      (Product.rowsTimes (Layer.scaledFeatures (m ((c : Thread nD τ).loc main_arg0)) (m ((c : Thread nD τ).loc main_arg1)))
        (m ((c : Thread nD τ).loc main_arg2))))

/-- What the host lines after the region leave in the result buffer is `result`: the region's output array is the whole
    product of the scaled features and the weight. -/
theorem result_value (c : Dev nD) :
    Pipeline.afterTail₀ cfgs (dats m) 0 (V0 m) [hostOps1] c main_v42 = result m c := by
  rw [HostValues.result_eq, Product.final]
  unfold Product.lhsArr Product.rhsArr result
  rw [HostValues.lhs_eq, HostValues.rhs_eq]

/-- Every weakly fair execution of the idealized kernel ends with the result buffer at `result` and the arguments as
    launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v42 (Pipeline.mem_restRefs_of main_v42 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- Both programs, from memories agreeing on the arguments, end with the result buffer at `result`. -/
theorem algebraic : Cert.algebraic_KernelIdeal_ReferenceIdeal := by
  intro m ρ m' ρ' hpre hagree
  refine ⟨fun c => result m c, kernel_run m ρ, ?_⟩
  refine (θ_run Cert.ReferenceIdeal.defs _ _).mono (fun _ h c => ⟨(h c).1.trans ?_, (h c).2⟩)
    (Cert.ReferenceIdeal.RunP.run (F := Ideal) m' ρ')
  show Cert.ReferenceIdeal.RunP.res_main_v47 m' c = result m c
  rw [Cert.ReferenceIdeal.RefValue.result_eq, (hagree c).1, (hagree c).2.1, (hagree c).2.2.1, (hagree c).2.2.2]
  obtain ⟨hx, hW, -⟩ := Cert.Finite.real_of_pre _ _ _ _ (hpre c)
  unfold result
  rw [Cert.Layer.messages_eq _ _ _ _
    (Cert.ReferenceIdeal.RefValue.plainProduct (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (fun j q => Cert.Scaled.product_scaled _ _ _ hx hW j q)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
